-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S8192 : Shape := ⟨1, ![8192]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S1024x64 .f32) (main_arg1 : FVec F S8192 .f32) (main_arg2 : FVec F S8192 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S1024x64 : Shape := ⟨2, ![1024, 64]⟩
abbrev S8192 : Shape := ⟨1, ![8192]⟩
abbrev S_ : Shape := ⟨0, ![]⟩
abbrev S1x8192 : Shape := ⟨2, ![1, 8192]⟩
abbrev S1024x8192 : Shape := ⟨2, ![1024, 8192]⟩
abbrev S256x64 : Shape := ⟨2, ![256, 64]⟩
abbrev S256x8192 : Shape := ⟨2, ![256, 8192]⟩
abbrev S256x128 : Shape := ⟨2, ![256, 128]⟩
abbrev S256x1x128 : Shape := ⟨3, ![256, 1, 128]⟩
abbrev S1x64x128 : Shape := ⟨3, ![1, 64, 128]⟩
abbrev S256x64x128 : Shape := ⟨3, ![256, 64, 128]⟩

abbrev nBuf : Space → Nat
  | .hbm => 57
  | .vmem => 6
  | .smem => 0
  | _ => 0

abbrev bufTy : (tb : Table) → Fin (tcTables nBuf tb) → BufTy
  | .hbm, ⟨0, _⟩ => ⟨S1024x64, .f32⟩
  | .hbm, ⟨1, _⟩ => ⟨S8192, .f32⟩
  | .hbm, ⟨2, _⟩ => ⟨S8192, .f32⟩
  | .hbm, ⟨3, _⟩ => ⟨S8192, .i32⟩
  | .hbm, ⟨4, _⟩ => ⟨S_, .i32⟩
  | .hbm, ⟨5, _⟩ => ⟨S_, .i32⟩
  | .hbm, ⟨6, _⟩ => ⟨S8192, .i32⟩
  | .hbm, ⟨7, _⟩ => ⟨S8192, .i32⟩
  | .hbm, ⟨8, _⟩ => ⟨S8192, .i32⟩
  | .hbm, ⟨9, _⟩ => ⟨S_, .i32⟩
  | .hbm, ⟨10, _⟩ => ⟨S8192, .i32⟩
  | .hbm, ⟨11, _⟩ => ⟨S8192, .i1⟩
  | .hbm, ⟨12, _⟩ => ⟨S8192, .i32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S8192, .i1⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S8192, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S8192, .i32⟩
  | .hbm, ⟨29, _⟩ => ⟨S8192, .i32⟩
  | .hbm, ⟨30, _⟩ => ⟨S_, .i32⟩
  | .hbm, ⟨31, _⟩ => ⟨S8192, .i32⟩
  | .hbm, ⟨32, _⟩ => ⟨S8192, .i1⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S_, .i32⟩
  | .hbm, ⟨37, _⟩ => ⟨S_, .i1⟩
  | .hbm, ⟨38, _⟩ => ⟨S8192, .i1⟩
  | .hbm, ⟨39, _⟩ => ⟨S8192, .i1⟩
  | .hbm, ⟨40, _⟩ => ⟨S8192, .i1⟩
  | .hbm, ⟨41, _⟩ => ⟨S8192, .i32⟩
  | .hbm, ⟨42, _⟩ => ⟨S8192, .i32⟩
  | .hbm, ⟨43, _⟩ => ⟨S8192, .i32⟩
  | .hbm, ⟨44, _⟩ => ⟨S_, .i32⟩
  | .hbm, ⟨45, _⟩ => ⟨S8192, .i32⟩
  | .hbm, ⟨46, _⟩ => ⟨S8192, .i1⟩
  | .hbm, ⟨47, _⟩ => ⟨S_, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192, .f32⟩
  | .hbm, ⟨52, _⟩ => ⟨S8192, .f32⟩
  | .hbm, ⟨53, _⟩ => ⟨S8192, .f32⟩
  | .hbm, ⟨54, _⟩ => ⟨S1x8192, .f32⟩
  | .hbm, ⟨55, _⟩ => ⟨S1x8192, .f32⟩
  | .hbm, ⟨56, _⟩ => ⟨S1024x8192, .f32⟩
  | .local _ .vmem, ⟨0, _⟩ => ⟨S256x64, .f32⟩
  | .local _ .vmem, ⟨1, _⟩ => ⟨S256x64, .f32⟩
  | .local _ .vmem, ⟨2, _⟩ => ⟨S1x8192, .f32⟩
  | .local _ .vmem, ⟨3, _⟩ => ⟨S1x8192, .f32⟩
  | .local _ .vmem, ⟨4, _⟩ => ⟨S256x8192, .f32⟩
  | .local _ .vmem, ⟨5, _⟩ => ⟨S256x8192, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_c_0 : Ref sig .tc := ⟨.hbm, 22, rfl⟩
abbrev main_call1_v0 : Ref sig .tc := ⟨.hbm, 23, rfl⟩
abbrev main_call1_c : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_c_1 : Ref sig .tc := ⟨.hbm, 30, rfl⟩
abbrev main_call1_v5 : Ref sig .tc := ⟨.hbm, 31, rfl⟩
abbrev main_call1_v6 : Ref sig .tc := ⟨.hbm, 32, rfl⟩
abbrev main_call1_c_2 : Ref sig .tc := ⟨.hbm, 33, rfl⟩
abbrev main_call1_v7 : Ref sig .tc := ⟨.hbm, 34, rfl⟩
abbrev main_call1_v8 : Ref sig .tc := ⟨.hbm, 35, rfl⟩
abbrev main_call1_c_3 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_v2 : Ref sig .tc := ⟨.hbm, 43, rfl⟩
abbrev main_c_1 : Ref sig .tc := ⟨.hbm, 44, rfl⟩
abbrev main_v3 : Ref sig .tc := ⟨.hbm, 45, rfl⟩
abbrev main_v4 : Ref sig .tc := ⟨.hbm, 46, rfl⟩
abbrev main_cst : Ref sig .tc := ⟨.hbm, 47, rfl⟩
abbrev main_cst_2 : Ref sig .tc := ⟨.hbm, 48, rfl⟩
abbrev main_call2_v0 : Ref sig .tc := ⟨.hbm, 49, rfl⟩
abbrev main_call2_v1 : Ref sig .tc := ⟨.hbm, 50, rfl⟩
abbrev main_v5 : Ref sig .tc := ⟨.hbm, 51, rfl⟩
abbrev main_v6 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S8192 : S_.BroadcastsInDim S8192 (![] : Fin 0 → Fin S8192.rank)
  shapeCasts_S8192_S1x8192 : S8192.ShapeCasts S1x8192
  inb_S256x64_S256x64_0_0 : ∀ a, (![0, 0] : Fin 2 → Nat) a + S256x64.size a ≤ S256x64.size a
  h_S256x64 : 0 < S256x64.numel
  concatenates_S256x64_S256x64_S256x128_d1 : Shape.Concatenates [S256x64, S256x64] S256x128 1
  shapeCasts_S256x128_S256x1x128 : S256x128.ShapeCasts S256x1x128
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  shapeCasts_S1x8192_S1x64x128 : S1x8192.ShapeCasts S1x64x128
  broadcasts_S1x64x128_S256x64x128 : S1x64x128.Broadcasts S256x64x128
  broadcasts_S256x1x128_S256x64x128 : S256x1x128.Broadcasts S256x64x128
  shapeCasts_S256x64x128_S256x8192 : S256x64x128.ShapeCasts S256x8192
  inb_S256x8192_S256x8192_0_0 : ∀ a, (![0, 0] : Fin 2 → Nat) a + S256x8192.size a ≤ S256x8192.size a
  h_S256x8192 : 0 < S256x8192.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S1024x64.size a
  hwx0_0 : ∀ i : grid0.Coords, EltTy.bits .f32 = 32 ∨ (Rect.block (s := S1024x64) S256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x8192.size a ≤ S1024x8192.size a
  hwx0_3 : ∀ i : grid0.Coords, EltTy.bits .f32 = 32 ∨ (Rect.block (s := S1024x8192) S256x8192.size (cc0_transform_3 i) (hinb0_3 i)).WholeWords (EltTy.packing .f32)

variable [Facts₀]

abbrev win0_0 : Pipeline.Window sig grid0 :=
  Pipeline.Window.ofSpec (Memref.whole main_arg0) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S256x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x64 : Shape := ⟨2, ![1024, 64]⟩
abbrev S8192 : Shape := ⟨1, ![8192]⟩
abbrev S_ : Shape := ⟨0, ![]⟩
abbrev S8192x1 : Shape := ⟨2, ![8192, 1]⟩
abbrev S1024x8192 : Shape := ⟨2, ![1024, 8192]⟩
abbrev S1x8192 : Shape := ⟨2, ![1, 8192]⟩

abbrev nBuf : Space → Nat
  | .hbm => 101
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S8192, .f32⟩
  | .hbm, ⟨2, _⟩ => ⟨S8192, .f32⟩
  | .hbm, ⟨3, _⟩ => ⟨S8192, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S_, .i32⟩
  | .hbm, ⟨13, _⟩ => ⟨S8192, .i32⟩
  | .hbm, ⟨14, _⟩ => ⟨S8192, .i1⟩
  | .hbm, ⟨15, _⟩ => ⟨S_, .i32⟩
  | .hbm, ⟨16, _⟩ => ⟨S8192, .i32⟩
  | .hbm, ⟨17, _⟩ => ⟨S8192, .i1⟩
  | .hbm, ⟨18, _⟩ => ⟨S_, .i32⟩
  | .hbm, ⟨19, _⟩ => ⟨S_, .i1⟩
  | .hbm, ⟨20, _⟩ => ⟨S8192, .i1⟩
  | .hbm, ⟨21, _⟩ => ⟨S8192, .i1⟩
  | .hbm, ⟨22, _⟩ => ⟨S8192, .i1⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S_, .i32⟩
  | .hbm, ⟨27, _⟩ => ⟨S_, .i32⟩
  | .hbm, ⟨28, _⟩ => ⟨S8192, .i32⟩
  | .hbm, ⟨29, _⟩ => ⟨S8192, .i32⟩
  | .hbm, ⟨30, _⟩ => ⟨S8192, .i32⟩
  | .hbm, ⟨31, _⟩ => ⟨S_, .i32⟩
  | .hbm, ⟨32, _⟩ => ⟨S8192, .i32⟩
  | .hbm, ⟨33, _⟩ => ⟨S8192, .i1⟩
  | .hbm, ⟨34, _⟩ => ⟨S8192, .i32⟩
  | .hbm, ⟨35, _⟩ => ⟨S8192, .i32⟩
  | .hbm, ⟨36, _⟩ => ⟨S_, .i32⟩
  | .hbm, ⟨37, _⟩ => ⟨S8192, .i32⟩
  | .hbm, ⟨38, _⟩ => ⟨S8192, .i1⟩
  | .hbm, ⟨39, _⟩ => ⟨S8192, .i1⟩
  | .hbm, ⟨40, _⟩ => ⟨S_, .i32⟩
  | .hbm, ⟨41, _⟩ => ⟨S8192, .i32⟩
  | .hbm, ⟨42, _⟩ => ⟨S8192, .i32⟩
  | .hbm, ⟨43, _⟩ => ⟨S8192, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S8192, .i32⟩
  | .hbm, ⟨51, _⟩ => ⟨S8192, .i32⟩
  | .hbm, ⟨52, _⟩ => ⟨S_, .i32⟩
  | .hbm, ⟨53, _⟩ => ⟨S8192, .i32⟩
  | .hbm, ⟨54, _⟩ => ⟨S8192, .i1⟩
  | .hbm, ⟨55, _⟩ => ⟨S_, .i32⟩
  | .hbm, ⟨56, _⟩ => ⟨S8192, .i32⟩
  | .hbm, ⟨57, _⟩ => ⟨S8192, .i1⟩
  | .hbm, ⟨58, _⟩ => ⟨S_, .i32⟩
  | .hbm, ⟨59, _⟩ => ⟨S_, .i1⟩
  | .hbm, ⟨60, _⟩ => ⟨S8192, .i1⟩
  | .hbm, ⟨61, _⟩ => ⟨S8192, .i1⟩
  | .hbm, ⟨62, _⟩ => ⟨S8192, .i1⟩
  | .hbm, ⟨63, _⟩ => ⟨S8192, .i32⟩
  | .hbm, ⟨64, _⟩ => ⟨S8192, .i32⟩
  | .hbm, ⟨65, _⟩ => ⟨S8192, .i32⟩
  | .hbm, ⟨66, _⟩ => ⟨S_, .i32⟩
  | .hbm, ⟨67, _⟩ => ⟨S8192, .i32⟩
  | .hbm, ⟨68, _⟩ => ⟨S8192, .i1⟩
  | .hbm, ⟨69, _⟩ => ⟨S8192, .f32⟩
  | .hbm, ⟨70, _⟩ => ⟨S_, .f32⟩
  | .hbm, ⟨71, _⟩ => ⟨S8192, .f32⟩
  | .hbm, ⟨72, _⟩ => ⟨S8192, .f32⟩
  | .hbm, ⟨73, _⟩ => ⟨S_, .i32⟩
  | .hbm, ⟨74, _⟩ => ⟨S8192, .i32⟩
  | .hbm, ⟨75, _⟩ => ⟨S8192, .i1⟩
  | .hbm, ⟨76, _⟩ => ⟨S_, .i32⟩
  | .hbm, ⟨77, _⟩ => ⟨S8192, .i32⟩
  | .hbm, ⟨78, _⟩ => ⟨S8192, .i32⟩
  | .hbm, ⟨79, _⟩ => ⟨S8192, .i32⟩
  | .hbm, ⟨80, _⟩ => ⟨S8192x1, .i32⟩
  | .hbm, ⟨81, _⟩ => ⟨S1024x8192, .f32⟩
  | .hbm, ⟨82, _⟩ => ⟨S1x8192, .f32⟩
  | .hbm, ⟨83, _⟩ => ⟨S1024x8192, .f32⟩
  | .hbm, ⟨84, _⟩ => ⟨S1024x8192, .f32⟩
  | .hbm, ⟨85, _⟩ => ⟨S_, .f32⟩
  | .hbm, ⟨86, _⟩ => ⟨S1024x8192, .f32⟩
  | .hbm, ⟨87, _⟩ => ⟨S1024x8192, .f32⟩
  | .hbm, ⟨88, _⟩ => ⟨S1x8192, .f32⟩
  | .hbm, ⟨89, _⟩ => ⟨S1024x8192, .f32⟩
  | .hbm, ⟨90, _⟩ => ⟨S1024x8192, .f32⟩
  | .hbm, ⟨91, _⟩ => ⟨S1x8192, .f32⟩
  | .hbm, ⟨92, _⟩ => ⟨S1024x8192, .f32⟩
  | .hbm, ⟨93, _⟩ => ⟨S1024x8192, .f32⟩
  | .hbm, ⟨94, _⟩ => ⟨S_, .f32⟩
  | .hbm, ⟨95, _⟩ => ⟨S1024x8192, .f32⟩
  | .hbm, ⟨96, _⟩ => ⟨S1024x8192, .f32⟩
  | .hbm, ⟨97, _⟩ => ⟨S1x8192, .f32⟩
  | .hbm, ⟨98, _⟩ => ⟨S1024x8192, .f32⟩
  | .hbm, ⟨99, _⟩ => ⟨S1024x8192, .f32⟩
  | .hbm, ⟨100, _⟩ => ⟨S1024x8192, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v1 : Ref sig .tc := ⟨.hbm, 25, rfl⟩
abbrev main_c_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_c : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_0 : Ref sig .tc := ⟨.hbm, 40, rfl⟩
abbrev main_call1_v12 : Ref sig .tc := ⟨.hbm, 41, rfl⟩
abbrev main_call1_v13 : Ref sig .tc := ⟨.hbm, 42, rfl⟩
abbrev main_v2 : Ref sig .tc := ⟨.hbm, 43, rfl⟩
abbrev main_c_1 : Ref sig .tc := ⟨.hbm, 44, rfl⟩
abbrev main_call2_v0 : Ref sig .tc := ⟨.hbm, 45, rfl⟩
abbrev main_call2_c : Ref sig .tc := ⟨.hbm, 46, rfl⟩
abbrev main_call2_v1 : Ref sig .tc := ⟨.hbm, 47, rfl⟩
abbrev main_call2_c_0 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_c_1 : Ref sig .tc := ⟨.hbm, 52, rfl⟩
abbrev main_call2_v5 : Ref sig .tc := ⟨.hbm, 53, rfl⟩
abbrev main_call2_v6 : Ref sig .tc := ⟨.hbm, 54, rfl⟩
abbrev main_call2_c_2 : Ref sig .tc := ⟨.hbm, 55, rfl⟩
abbrev main_call2_v7 : Ref sig .tc := ⟨.hbm, 56, rfl⟩
abbrev main_call2_v8 : Ref sig .tc := ⟨.hbm, 57, rfl⟩
abbrev main_call2_c_3 : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_v12 : Ref sig .tc := ⟨.hbm, 62, rfl⟩
abbrev main_call2_v13 : Ref sig .tc := ⟨.hbm, 63, rfl⟩
abbrev main_call2_v14 : Ref sig .tc := ⟨.hbm, 64, rfl⟩
abbrev main_v3 : Ref sig .tc := ⟨.hbm, 65, rfl⟩
abbrev main_c_2 : Ref sig .tc := ⟨.hbm, 66, rfl⟩
abbrev main_v4 : Ref sig .tc := ⟨.hbm, 67, rfl⟩
abbrev main_v5 : Ref sig .tc := ⟨.hbm, 68, rfl⟩
abbrev main_v6 : Ref sig .tc := ⟨.hbm, 69, rfl⟩
abbrev main_cst : Ref sig .tc := ⟨.hbm, 70, rfl⟩
abbrev main_v7 : Ref sig .tc := ⟨.hbm, 71, rfl⟩
abbrev main_v8 : Ref sig .tc := ⟨.hbm, 72, rfl⟩
abbrev main_c_3 : Ref sig .tc := ⟨.hbm, 73, rfl⟩
abbrev main_v9 : Ref sig .tc := ⟨.hbm, 74, rfl⟩
abbrev main_v10 : Ref sig .tc := ⟨.hbm, 75, rfl⟩
abbrev main_c_4 : Ref sig .tc := ⟨.hbm, 76, rfl⟩
abbrev main_v11 : Ref sig .tc := ⟨.hbm, 77, rfl⟩
abbrev main_v12 : Ref sig .tc := ⟨.hbm, 78, rfl⟩
abbrev main_v13 : Ref sig .tc := ⟨.hbm, 79, rfl⟩
abbrev main_v14 : Ref sig .tc := ⟨.hbm, 80, rfl⟩
abbrev main_v15 : Ref sig .tc := ⟨.hbm, 81, rfl⟩
abbrev main_v16 : Ref sig .tc := ⟨.hbm, 82, rfl⟩
abbrev main_v17 : Ref sig .tc := ⟨.hbm, 83, rfl⟩
abbrev main_v18 : Ref sig .tc := ⟨.hbm, 84, rfl⟩
abbrev main_call3_cst : Ref sig .tc := ⟨.hbm, 85, rfl⟩
abbrev main_call3_v0 : Ref sig .tc := ⟨.hbm, 86, rfl⟩
abbrev main_v19 : Ref sig .tc := ⟨.hbm, 87, rfl⟩
abbrev main_v20 : Ref sig .tc := ⟨.hbm, 88, rfl⟩
abbrev main_v21 : Ref sig .tc := ⟨.hbm, 89, rfl⟩
abbrev main_v22 : Ref sig .tc := ⟨.hbm, 90, rfl⟩
abbrev main_v23 : Ref sig .tc := ⟨.hbm, 91, rfl⟩
abbrev main_v24 : Ref sig .tc := ⟨.hbm, 92, rfl⟩
abbrev main_v25 : Ref sig .tc := ⟨.hbm, 93, rfl⟩
abbrev main_call4_cst : Ref sig .tc := ⟨.hbm, 94, rfl⟩
abbrev main_call4_v0 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_v29 : Ref sig .tc := ⟨.hbm, 99, rfl⟩
abbrev main_v30 : Ref sig .tc := ⟨.hbm, 100, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S1x8192_S1024x8192_0_1 : S1x8192.BroadcastsInDim S1024x8192 (![0, 1] : Fin 2 → Fin S1024x8192.rank)
  bcast_S_S1024x8192 : S_.BroadcastsInDim S1024x8192 (![] : Fin 0 → Fin S1024x8192.rank)
  gather_S1024x64_S8192x1_S1024x8192_0_1_n_n_1_1_10241_wf : GatherDims.WF S1024x64 S8192x1 S1024x8192 [0] [1] [] [1] [] 1 ![1024, 1]

variable [Facts₀]

def gather_S1024x64_S8192x1_S1024x8192_0_1_n_n_1_1_10241 : GatherDims S1024x64 S8192x1 S1024x8192 where
  offsetDims := [0]
  collapsedSliceDims := [1]
  operandBatchingDims := []
  startIndicesBatchingDims := []
  startIndexMap := [1]
  indexVectorDim := 1
  sliceSizes := ![1024, 1]
  wf := gather_S1024x64_S8192x1_S1024x8192_0_1_n_n_1_1_10241_wf

class Facts : Prop extends Facts₀ where

variable [Facts]
-- ==== Proof.KernelBlocks.lean ====
/-
  The kernel's output array as ONE function of the arrays its region finds.

  The grid has four points; point `t` stages rows `256 t … 256 t + 255` of the features `x` (all 64 columns), the whole
  sign row and the whole offset row (each `[1, 8192]`, the same block at every point), and writes back rows
  `256 t … 256 t + 255` of the output, all 8192 columns. The body tiles the 64 feature columns twice to 128 lanes, views
  the two rows as 64 groups of 128 lanes, and computes `max(sign · x + offset, 0)` with broadcasting; laid back out,
  output column `u` reads the feature column `(u mod 128) mod 64 = u mod 64` (the generated value leg's `canon3_eq` has
  already read the body's layout operations at an index). So the block point `t` writes is block `t` of
    `out[r, u] = max(sign[0, u] · x[r, u mod 64] + offset[0, u], 0)`,
  the four blocks tile the output, and the array ends holding that function (`final`).
-/
import proofs.«421480_j72696616452322_3_alg».proof.Proof.Gen.KernelIdeal.Value
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- Where output index `(r, u)` reads the sign and offset rows: `(0, u)`. -/
abbrev unitAt (i : S1024x8192.Idx) : S1x8192.Idx := fun a => match a with
  | ⟨0, _⟩ => ⟨0, by show 0 < 1; omega⟩
  | ⟨1, _⟩ => ⟨(i 1).val, by have h : (i 1).val < 8192 := (i 1).isLt; show (i 1).val < 8192; omega⟩

/-- Where output index `(r, u)` reads the features: `(r, u mod 64)`. -/
abbrev featAt (i : S1024x8192.Idx) : S1024x64.Idx := fun a => match a with
  | ⟨0, _⟩ => ⟨(i 0).val, by have h : (i 0).val < 1024 := (i 0).isLt; show (i 0).val < 1024; omega⟩
  | ⟨1, _⟩ => ⟨(i 1).val % 64, by show (i 1).val % 64 < 64; omega⟩

/-- The output array as a function of the features, the sign row and the offset row, index by index. -/
abbrev outOf (x : S1024x64.Idx → Elt F .f32) (sg bb : S1x8192.Idx → Elt F .f32) : S1024x8192.Idx → Elt F .f32 :=
  fun i => FloatOps.maximumf (FloatOps.addf (FloatOps.mulf (sg (unitAt i)) (x (featAt i))) (bb (unitAt i)))
    (Scalar.ofBits .f32 0x00000000#32)

/-- What the body leaves in the output block, element by element, for any blocks of the three inputs: the sign and offset at
    the block's column, the feature at the block's row and its column mod 64 (both halves of the lane tiling hold the
    same 64 columns). -/
theorem body_elt (x0 : Vec F S256x64 .f32) (x1 x2 : Vec F S1x8192 .f32) (j : S256x8192.Idx) :
    out0_3 x0 x1 x2 j = FloatOps.maximumf (FloatOps.addf (FloatOps.mulf (x1 (Value.ix3_0 j)) (x0 (Value.ix3_1 j)))
      (x2 (Value.ix3_2 j))) (Scalar.ofBits .f32 0x00000000#32) := by
  unfold out0_3
  simp only [View.ld_unit_zero (S := S256x64) hz, View.ld_unit_zero (S := S1x8192) hz]
  rw [Value.canon3_eq]
  have hc : ∀ n : Fin 2, Value.Cat3_1 x1 x0 x2 n = x0 := fun n => by
    match n with
    | ⟨0, _⟩ => rfl
    | ⟨1, _⟩ => rfl
  show FloatOps.maximumf (FloatOps.addf (FloatOps.mulf (x1 (Value.ix3_0 j))
    (Value.Cat3_1 x1 x0 x2 (Value.csel3_1 j) (Value.ix3_1 j))) (x2 (Value.ix3_2 j))) (Scalar.ofBits .f32 0x00000000#32) = _
  rw [hc]

/-- The printed index maps, decided over the four points: the features' block moves with the output's along the rows,
    the two rows' blocks never move, and no block moves along the columns. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 3 :=
  (by decide +kernel : ∀ t : Fin grid0.N, _)

/-- Every block of rows is some point's. -/
theorem idx_onto : ∀ q : Fin 4, ∃ t : Fin cfg0.N, win0_3.index t = ![q.val, 0] :=
  (by decide +kernel : ∀ q : Fin 4, ∃ t : Fin grid0.N, win0_3.index t = ![q.val, 0])

/-- WHAT POINT `t` WRITES BACK is block `t` of `outOf` of the arrays as the region finds them. -/
theorem flushed_eq (c : Dev nD) (t : Fin cfg0.N) :
    (dats m 0 c).flushed 3 t
      = ((cfg0.win 3).blk t).view.read (Elt F) (outOf (V m c main_arg0) (V m c main_v8) (V m c main_v9)) := by
  rw [Value.flushed3]
  obtain ⟨e0, e1, e2, e3, e4, e5, e6, e7⟩ := idx_facts t
  funext j
  show out0_3 (iblk m c 0 t) (iblk m c 1 t) (iblk m c 2 t) j
    = outOf (V m c main_arg0) (V m c main_v8) (V m c main_v9) (((cfg0.win 3).blk t).view.emb j)
  refine (body_elt (iblk m c 0 t) (iblk m c 1 t) (iblk m c 2 t) j).trans ?_
  show FloatOps.maximumf (FloatOps.addf (FloatOps.mulf
        (V m c main_v8 (((cfg0.win 1).blk t).view.emb (Value.ix3_0 j)))
        (V m c main_arg0 (((cfg0.win 0).blk t).view.emb (Value.ix3_1 j))))
        (V m c main_v9 (((cfg0.win 2).blk t).view.emb (Value.ix3_2 j)))) (Scalar.ofBits .f32 0x00000000#32)
    = FloatOps.maximumf (FloatOps.addf (FloatOps.mulf
        (V m c main_v8 (unitAt (((cfg0.win 3).blk t).view.emb j)))
        (V m c main_arg0 (featAt (((cfg0.win 3).blk t).view.emb j))))
        (V m c main_v9 (unitAt (((cfg0.win 3).blk t).view.emb j)))) (Scalar.ofBits .f32 0x00000000#32)
  have hj0 : (j 0).val < 256 := (j 0).isLt
  have hj1 : (j 1).val < 8192 := (j 1).isLt
  have h1 : ((cfg0.win 1).blk t).view.emb (Value.ix3_0 j) = unitAt (((cfg0.win 3).blk t).view.emb j) := by
    funext a; apply Fin.ext
    match a with
    | ⟨0, _⟩ => show win0_1.index t (0 : Fin 2) * 1 + 1 * 0 = 0; omega
    | ⟨1, _⟩ => show win0_1.index t (1 : Fin 2) * 8192 + 1 * (j 1).val = win0_3.index t (1 : Fin 2) * 8192 + 1 * (j 1).val; omega
  have h2 : ((cfg0.win 2).blk t).view.emb (Value.ix3_2 j) = unitAt (((cfg0.win 3).blk t).view.emb j) := by
    funext a; apply Fin.ext
    match a with
    | ⟨0, _⟩ => show win0_2.index t (0 : Fin 2) * 1 + 1 * 0 = 0; omega
    | ⟨1, _⟩ => show win0_2.index t (1 : Fin 2) * 8192 + 1 * (j 1).val = win0_3.index t (1 : Fin 2) * 8192 + 1 * (j 1).val; omega
  have h0 : ((cfg0.win 0).blk t).view.emb (Value.ix3_1 j) = featAt (((cfg0.win 3).blk t).view.emb j) := by
    funext a; apply Fin.ext
    match a with
    | ⟨0, _⟩ => show win0_0.index t (0 : Fin 2) * 256 + 1 * (j 0).val = win0_3.index t (0 : Fin 2) * 256 + 1 * (j 0).val; omega
    | ⟨1, _⟩ => show win0_0.index t (1 : Fin 2) * 64 + 1 * ((j 1).val % 64) = (win0_3.index t (1 : Fin 2) * 8192 + 1 * (j 1).val) % 64; omega
  rw [h0, h1, h2]

/-- An index of the output is in point `t`'s block iff each coordinate is in the block's range on its axis. -/
theorem mem_blk (t : Fin cfg0.N) (i : S1024x8192.Idx) :
    i ∈ ((cfg0.win 3).blk t).view.set ↔ ∀ a : Fin 2, win0_3.index t a * S256x8192.size a ≤ (i a).val
      ∧ (i a).val < win0_3.index t a * S256x8192.size a + S256x8192.size a := by
  show i ∈ ((View.whole main_v10).slice (win0_3.rect t)).set ↔ _
  rw [View.set_slice_whole, Rect.mem_set_unit]
  exact Iff.rfl

/-- The four blocks of 256 rows tile the output: row `r` is in the block of point `r / 256`. -/
theorem cover (i : S1024x8192.Idx) :
    ∃ t : Fin cfg0.N, (cfg0.win 3).flush t = true ∧ i ∈ ((cfg0.win 3).blk t).view.set := by
  have hi0 : (i 0).val < 1024 := (i 0).isLt
  have hi1 : (i 1).val < 8192 := (i 1).isLt
  obtain ⟨t, ht⟩ := idx_onto ⟨(i 0).val / 256, by omega⟩
  have q0 : win0_3.index t (0 : Fin 2) = (i 0).val / 256 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 8192 ≤ (i 1).val ∧ (i 1).val < win0_3.index t (1 : Fin 2) * 8192 + 8192; omega

/-- THE OUTPUT ARRAY after the run is `outOf` of the arrays as the region finds them. -/
theorem final (c : Dev nD) :
    (dats m 0 c).arrAt 3 cfg0.N = outOf (V m c main_arg0) (V m c main_v8) (V m c main_v9) :=
  (dats m 0 c).arrAt_eq_of_cover 3 _ (fun t _ => flushed_eq m c t) cover

end Cert.KernelIdeal.Blocks

end
-- ==== Proof.HostWords.lean ====
/-
  The integer chains both programs trace on the host, as pure terms, and the one of them whose value the proof needs.

  `jnp.remainder(a, d)` and `jnp.floor_divide(a, d)` of a vector of 32-bit words by a scalar lower to StableHLO's TRUNCATED
  remainder and quotient followed by a correction toward the divisor's sign (and, for the remainder, a guard that
  replaces a zero divisor by one). Both the kernel's wrapper and the reference compute the unit mask
  `g[u] = ((u // 64) % 2 == 0)` by the same chain over an iota, so the mask is carried here as ONE term, `unitMask`,
  whose value is never opened: the proof only splits on its bit. The reference also computes the column each unit reads,
  `u % 64` (again normalised, as an index that might be negative): for an iota below 8192 that word IS `u % 64`
  (`columnWord_apply`): the truncated remainder of a nonnegative word by 64 is the natural-number remainder, and on a word
  below 64 none of the sign corrections fires (decided over the 64 values).
-/
import Idealize.ShloMosaic.Lib.ValueIdx
import Idealize.ShloMosaic.Lib.IdealHost
import Idealize.ShloMosaic.Lib.Affine

noncomputable section

namespace Cert.HostWords

open Idealize.ShloMosaic Idealize.ShloMosaic.ValueIdx

/-- The units: a vector of 8192 entries. -/
abbrev Units : Shape := ⟨1, ![8192]⟩
/-- A scalar. -/
abbrev Sc : Shape := ⟨0, ![]⟩

variable (hb : Sc.BroadcastsInDim Units (![] : Fin 0 → Fin Units.rank))

/-- `jnp.remainder(a, d)` as traced: the divisor guarded against zero, the truncated remainder `r`, and `r + d` in its
    place where `r` is not zero and its sign differs from the divisor's. -/
def remT (a : IVec Units 32) (d : IVec Sc 32) : IVec Units 32 :=
  let s : IVec Sc 32 := select (cmpi .eq d (constantI Sc 32 0#32)) (constantI Sc 32 1#32) d
  let r : IVec Units 32 := Host.remsi a (broadcastInDim Units ![] hb s)
  select
    (andi
      (cmpi .ne (cmpi .slt r (broadcastInDim Units ![] hb (constantI Sc 32 0#32)))
        (broadcastInDim Units ![] hb (cmpi .slt s (constantI Sc 32 0#32))))
      (cmpi .ne r (broadcastInDim Units ![] hb (constantI Sc 32 0#32))))
    (addi r (broadcastInDim Units ![] hb s))
    r

/-- `jnp.floor_divide(a, d)` as traced: the truncated quotient `q`, and `q − 1` in its place where the signs of `a` and
    `d` differ and the division is not exact. -/
def floorDivT (a : IVec Units 32) (d : IVec Sc 32) : IVec Units 32 :=
  let q : IVec Units 32 := Host.divsi a (broadcastInDim Units ![] hb d)
  select
    (andi
      (cmpi .ne (signi a) (broadcastInDim Units ![] hb (signi d)))
      (cmpi .ne (Host.remsi a (broadcastInDim Units ![] hb d)) (broadcastInDim Units ![] hb (constantI Sc 32 0#32))))
    (subi q (broadcastInDim Units ![] hb (constantI Sc 32 1#32)))
    q

/-- The unit mask `((u // 64) % 2) == 0` over `u = 0 … 8191`, one bit per unit: the term both programs compute. -/
def unitMask : IVec Units 1 :=
  cmpi .eq
    (remT hb (floorDivT hb (iotaInDim Units 32 0) (constantI Sc 32 64#32)) (constantI Sc 32 2#32))
    (broadcastInDim Units ![] hb (constantI Sc 32 0#32))

/-- The column each unit reads, `u % 64`, as the reference computes it: the remainder, then (as for any index that
    might be negative) `+ 64` where it is below zero. -/
def columnWord : IVec Units 32 :=
  let v : IVec Units 32 := remT hb (iotaInDim Units 32 0) (constantI Sc 32 64#32)
  select (cmpi .slt v (broadcastInDim Units ![] hb (constantI Sc 32 0#32)))
    (addi v (broadcastInDim Units ![] hb (constantI Sc 32 64#32))) v

/-! ## The column word is `u % 64` -/

/-- The divisor as `remainder` guards it: `1` in place of `0`. -/
def guardDiv (d : BitVec 32) : BitVec 32 := Scalar.select (IntOp.cmpi .eq d 0#32) 1#32 d

/-- `remainder`'s correction of a truncated remainder `r` for the guarded divisor `s`. -/
def signFix (r s : BitVec 32) : BitVec 32 :=
  Scalar.select
    (IntOp.andi (IntOp.cmpi .ne (IntOp.cmpi .slt r 0#32) (IntOp.cmpi .slt s 0#32)) (IntOp.cmpi .ne r 0#32))
    (IntOp.addi r s) r

/-- The normalisation of an index that might be negative, for an axis of extent 64. -/
def wrapNeg (v : BitVec 32) : BitVec 32 := Scalar.select (IntOp.cmpi .slt v 0#32) (IntOp.addi v 64#32) v

/-- On a word below 64 neither correction fires. -/
theorem fix_small : ∀ k : Fin 64, wrapNeg (signFix (BitVec.ofNat 32 k.val) 64#32) = BitVec.ofNat 32 k.val := by decide

/-- The truncated remainder of a word below 8192 by 64 is the natural-number remainder. -/
theorem remsi_iota (u : Fin 8192) :
    IntOp.remsi .host (BitVec.ofNat 32 u.val) 64#32 = BitVec.ofNat 32 (u.val % 64) := by
  have hu : u.val < 8192 := u.isLt
  apply BitVec.eq_of_toNat_eq
  have hx : 2 * (BitVec.ofNat 32 u.val).toNat < 2 ^ 32 := by rw [BitVec.toNat_ofNat]; omega
  rw [IntOp.toNat_remsi .host hx 64 (by decide) (by decide), BitVec.toNat_ofNat, BitVec.toNat_ofNat]
  omega

/-- THE COLUMN WORD at unit `u` is the word `u % 64`. -/
theorem columnWord_apply (u : Fin 8192) : columnWord hb (ix1 u) = BitVec.ofNat 32 (u.val % 64) := by
  show wrapNeg (signFix (IntOp.remsi .host (BitVec.ofNat 32 u.val) (guardDiv 64#32)) (guardDiv 64#32)) = _
  rw [show guardDiv 64#32 = 64#32 from by decide, remsi_iota u]
  exact fix_small ⟨u.val % 64, Nat.mod_lt _ (by decide)⟩

/-- Read as a start index — signed, clamped into `[0, 63]` — the word `k` below 64 is `k`. -/
theorem clamp_small : ∀ k : Fin 64, min (BitVec.ofNat 32 k.val).toInt.toNat (64 - 1) = k.val := by decide

end Cert.HostWords

end
-- ==== Proof.KernelRows.lean ====
/-
  The two rows the kernel's wrapper computes on the host before the launch.

  From the unit mask `g` (the integer chain of Proof/HostWords.lean) the wrapper folds the reference's select into a sign
  and an offset per unit: `sign[u] = +1` where the bit is set and `−1` where it is clear, `offset[u] = −w1[u]` where it is
  set and `w2[u]` where it is clear; each is then reshaped `[8192] → [1, 8192]` and handed to the kernel as a window
  that never moves. Read off the host operations before the region, these are the contents the region finds in the two
  windows' arrays (`V_sign`, `V_offset`).
-/
import proofs.«421480_j72696616452322_3_alg».proof.Proof.Gen.KernelIdeal.Frame
import proofs.«421480_j72696616452322_3_alg».proof.Proof.HostWords
import Idealize.ShloMosaic.Lib.StableHlo.Run

noncomputable section

namespace Cert.KernelIdeal.Rows

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The sign row: `+1` on the units whose mask bit is set, `−1` on the others, as a `[1, 8192]` array. -/
def signRow : FVec F S1x8192 .f32 :=
  shapeCast S1x8192
    (select (HostWords.unitMask bcast_S_S8192)
      (broadcastInDim S8192 ![] bcast_S_S8192 (constant (F := F) S_ .f32 0x3F800000#32))
      (broadcastInDim S8192 ![] bcast_S_S8192 (constant (F := F) S_ .f32 0xBF800000#32)))
    shapeCasts_S8192_S1x8192

/-- The offset row: `−w1` on the units whose mask bit is set, `w2` on the others, as a `[1, 8192]` array. -/
def offsetRow (w1 w2 : FVec F S8192 .f32) : FVec F S1x8192 .f32 :=
  shapeCast S1x8192 (select (HostWords.unitMask bcast_S_S8192) (Host.negf w1) w2) shapeCasts_S8192_S1x8192

set_option maxRecDepth 8192 in
set_option maxHeartbeats 4000000 in
/-- The region finds the sign row in its second window's array. -/
theorem V_sign (c : Dev nD) : (V m c main_v8 : S1x8192.Idx → Elt F .f32) = signRow (F := F) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxRecDepth 8192 in
set_option maxHeartbeats 4000000 in
/-- The region finds the offset row of the two threshold vectors, as launched, in its third window's array. -/
theorem V_offset (c : Dev nD) :
    (V m c main_v9 : S1x8192.Idx → Elt F .f32)
      = offsetRow (m ((c : Thread nD τ).loc main_arg1)) (m ((c : Thread nD τ).loc main_arg2)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

end Cert.KernelIdeal.Rows

end
-- ==== Proof.TwoSidedRelu.lean ====
/-
  The law that joins the two programs, one output element at a time, on the extended reals.

  With `g` the unit's mask bit, `x` the feature it reads and `a`, `b` its two thresholds, the reference computes
  `g · max(x − a, 0) + (1 − g) · max(b − x, 0)` with `g` converted to a float, and the kernel
  `max(s · x + c, 0)` with `s = +1, c = −a` where the bit is set and `s = −1, c = b` where it is clear.
  Where the bit is set the reference's second summand is `(1 − 1) · … = 0 · … = 0` and the first `1 · max(x − a, 0)`;
  where it is clear the first is `0 · … = 0` and the second `(1 − 0) · max(b − x, 0)`. On the extended reals
  `0 · y = 0` and `1 · y = y` for EVERY `y`, infinite ones included, `(−1) · x = −x`, and `x − a = x + (−a)`; so the two
  sides agree for all extended reals and no finiteness of the inputs is used.
-/
import Idealize.ShloMosaic.Lib.IdealHost
import Idealize.ShloMosaic.Lib.ValueIdx

noncomputable section

namespace Cert.TwoSidedRelu

open Idealize.ShloMosaic Idealize.ShloMosaic.ValueIdx

/-- The f32 pattern `0xBF800000` is the extended real minus one. -/
theorem ofBits_neg_one_f32 : Ideal.ofBits .f32 0xBF800000#32 = -1 := by
  have h : Ideal.ofBits .f32 0xBF800000#32 = ((-(1 : ℝ) : ℝ) : EReal) := by
    simp [Ideal.ofBits, Ideal.ieee, -EReal.coe_mul, -EReal.coe_neg]; norm_num
  rw [h, EReal.coe_neg, EReal.coe_one]

/-- The kernel's element: the select folded into a sign and an offset. -/
def folded (g : BitVec 1) (x a b : EReal) : EReal :=
  max (Scalar.select g 1 (-1) * x + Scalar.select g (-a) b) 0

/-- The reference's element: the two one-sided terms weighted by the mask bit and its complement. -/
def masked (g : BitVec 1) (x a b : EReal) : EReal :=
  ((g.toNat : ℝ) : EReal) * max (x - a) 0 + (1 - ((g.toNat : ℝ) : EReal)) * max (b - x) 0

theorem one_sub_one : (1 : EReal) - 1 = 0 := by
  rw [← EReal.coe_one, ← EReal.coe_sub, sub_self, EReal.coe_zero]

/-- THE LAW: for every bit and all extended reals the two elements are equal. -/
theorem folded_eq_masked (g : BitVec 1) (x a b : EReal) : folded g x a b = masked g x a b := by
  rcases BitVec.eq_zero_or_eq_one g with rfl | rfl
  · -- the bit is clear: the second, "smaller than" side is the live one
    have h0 : (((0#1 : BitVec 1).toNat : ℝ) : EReal) = 0 := by
      rw [show (0#1 : BitVec 1).toNat = 0 from rfl, Nat.cast_zero, EReal.coe_zero]
    unfold folded masked
    rw [h0, select_zero, select_zero, zero_mul, zero_add, sub_zero, one_mul, neg_one_mul, add_comm, ← sub_eq_add_neg]
  · -- the bit is set: the first, "greater than" side is the live one
    have h1 : (((1#1 : BitVec 1).toNat : ℝ) : EReal) = 1 := by
      rw [show (1#1 : BitVec 1).toNat = 1 from rfl, Nat.cast_one, EReal.coe_one]
    unfold folded masked
    rw [h1, select_one, select_one, one_sub_one, zero_mul, add_zero, one_mul, one_mul, ← sub_eq_add_neg]

end Cert.TwoSidedRelu

end
-- ==== Proof.KernelRead.lean ====
/-
  The kernel's output read at one index, on the extended reals.

  At output index `(r, u)` the sign row and the offset row are read at `(0, u)`, that is at unit `u` of the vectors they
  reshape, where each is a select on the unit's mask bit: `+1` or `−1`, and `−w1[u]` or `w2[u]`; the feature is read at
  `(r, u mod 64)`; the one pattern is one, the minus-one pattern minus one, the zero pattern zero. So the element is
  the kernel's element of Proof/TwoSidedRelu.lean at the unit's mask bit, `x[r, u mod 64]`, `w1[u]` and `w2[u]`
  (`outOf_apply`).
-/
import proofs.«421480_j72696616452322_3_alg».proof.Proof.KernelBlocks
import proofs.«421480_j72696616452322_3_alg».proof.Proof.KernelRows
import proofs.«421480_j72696616452322_3_alg».proof.Proof.TwoSidedRelu
import Idealize.ShloMosaic.Lib.Pipeline.Value
import Idealize.ShloMosaic.Lib.IdealHost

noncomputable section

namespace Cert.KernelIdeal.Read

open Cert.KernelIdeal Cert.KernelIdeal.Gen Idealize.ShloMosaic Idealize.ShloMosaic.ValueIdx
open Cert.KernelIdeal.Blocks Cert.KernelIdeal.Rows

/-- Output index `(r, u)` reads the rows at `(0, u)` … -/
theorem unitAt_ix2 (r : Fin 1024) (u : Fin 8192) : unitAt (ix2 r u) = ix2 (0 : Fin 1) u := by
  funext a
  match a with
  | ⟨0, _⟩ => rfl
  | ⟨1, _⟩ => rfl

/-- … and the features at `(r, u mod 64)`. -/
theorem featAt_ix2 (r : Fin 1024) (u : Fin 8192) :
    featAt (ix2 r u) = ix2 r ⟨u.val % 64, Nat.mod_lt _ (by decide)⟩ := by
  funext a
  match a with
  | ⟨0, _⟩ => rfl
  | ⟨1, _⟩ => rfl

/-- A vector over the units reshaped to one row reads, at `(0, u)`, its entry `u`. -/
theorem row_apply {α : Type} (v : S8192.Idx → α) (u : Fin 8192) :
    shapeCast S1x8192 v shapeCasts_S8192_S1x8192 (ix2 (0 : Fin 1) u) = v (ix1 u) :=
  shapeCast_apply _ _ (ix2 (0 : Fin 1) u) (ix1 u) (by
    rw [Shape.rowMajor_val_one, Shape.rowMajor_val_two]
    show u.val = 0 * 8192 + u.val
    omega)

/-- THE KERNEL'S ELEMENT at `(r, u)`: `max(sign · x[r, u mod 64] + offset, 0)` with the sign and the offset selected by the
    unit's mask bit. -/
theorem outOf_apply (x : FVec Ideal S1024x64 .f32) (w1 w2 : FVec Ideal S8192 .f32) (r : Fin 1024) (u : Fin 8192) :
    outOf (F := Ideal) x (signRow (F := Ideal)) (offsetRow w1 w2) (ix2 r u)
      = Cert.TwoSidedRelu.folded (HostWords.unitMask bcast_S_S8192 (ix1 u))
          (x (ix2 r ⟨u.val % 64, Nat.mod_lt _ (by decide)⟩)) (w1 (ix1 u)) (w2 (ix1 u)) := by
  show max ((signRow (F := Ideal) (unitAt (ix2 r u))) * x (featAt (ix2 r u)) + offsetRow w1 w2 (unitAt (ix2 r u)))
      (Ideal.ofBits .f32 0x00000000#32) = _
  rw [unitAt_ix2, featAt_ix2]
  unfold signRow offsetRow Cert.TwoSidedRelu.folded
  rw [row_apply, row_apply]
  -- a broadcast scalar constant reads its pattern everywhere, and the host's negation is the negation
  show max (Scalar.select (HostWords.unitMask bcast_S_S8192 (ix1 u)) (Ideal.ofBits .f32 0x3F800000#32)
          (Ideal.ofBits .f32 0xBF800000#32) * x (ix2 r ⟨u.val % 64, Nat.mod_lt _ (by decide)⟩)
        + Scalar.select (HostWords.unitMask bcast_S_S8192 (ix1 u)) (-(w1 (ix1 u))) (w2 (ix1 u)))
      (Ideal.ofBits .f32 0x00000000#32) = _
  rw [Ideal.ofBits_one_f32, Cert.TwoSidedRelu.ofBits_neg_one_f32, Ideal.ofBits_zero_f32]

end Cert.KernelIdeal.Read

end
-- ==== Proof.RefRun.lean ====
/-
  The reference's run, read back.

  The reference is a straight line of host operations, five of them calls of functions jax outlined (`remainder` twice,
  `floor_divide`, `relu` twice; `remainder` and `floor_divide` each call a `where`). A call executes the callee's
  operations on the call's own buffers, so @main is the list `ops` of its own operations with each callee's lines in the
  call's place (`main_eq`). Every weakly fair execution of such a line terminates with each buffer at the fold of the
  operations over the launch contents (`run_main`), and that fold at the result buffer is ONE function `refOut` of the three
  arguments (`out_eq`): with `g` the unit mask as a float, `xg[r, u] = x[r, column u]` the gathered features and
  `rows v` a vector over the units laid along every row,
    `rows g · max(xg − rows w1, 0) + rows (1 − g) · max(rows w2 − xg, 0)`.
  The mask and the column are the integer chains of Proof/HostWords.lean.
-/
import proofs.«421480_j72696616452322_3_alg».proof.Proof.Gen.ReferenceIdeal
import proofs.«421480_j72696616452322_3_alg».proof.Proof.HostWords
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

/-- @main's 98 operations in order, the calls unfolded: `remainder(iota, 64)` (twenty-one lines into `main_call0`'s
    buffers, the `where` that guards the divisor among them), `floor_divide(iota, 64)` (seventeen into `main_call1`'s,
    ending in its `where`), `remainder(·, 2)` (into `main_call2`'s), then the mask as a float and its complement, the
    column normalised and gathered, and the two one-sided terms, each `relu` three lines into its call's buffers. -/
abbrev ops : List (HloOp τ sig (Elt F)) :=
  [ nullary main_v0 (iotaInDim S8192 32 0),
    nullary main_c (constantI S_ 32 64#32),
    TRef.unary (.of main_c : TRef sig ⟨S_, .i32⟩) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S8192 ![] bcast_S_S8192),
    TRef.binary (.of main_v0 : TRef sig ⟨S8192, .i32⟩) main_call0.v3 main_call0.v4 Host.remsi,
    TRef.nullary main_call0.c_1 (constantI S_ 32 0#32),
    TRef.unary main_call0.c_1 main_call0.v5 (broadcastInDim S8192 ![] bcast_S_S8192),
    TRef.binary main_call0.v4 main_call0.v5 main_call0.v6 (cmpi .ne),
    TRef.nullary main_call0.c_2 (constantI S_ 32 0#32),
    TRef.unary main_call0.c_2 main_call0.v7 (broadcastInDim S8192 ![] bcast_S_S8192),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S8192 ![] bcast_S_S8192),
    TRef.binary main_call0.v8 main_call0.v10 main_call0.v11 (cmpi .ne),
    TRef.binary main_call0.v11 main_call0.v6 main_call0.v12 andi,
    TRef.unary main_call0.call0.v0 main_call0.v13 (broadcastInDim S8192 ![] bcast_S_S8192),
    TRef.binary main_call0.v4 main_call0.v13 main_call0.v14 addi,
    TRef.ternary main_call0.v12 main_call0.v14 main_call0.v4 main_call0.v15 select,
    nullary main_c_0 (constantI S_ 32 64#32),
    TRef.unary (.of main_c_0 : TRef sig ⟨S_, .i32⟩) main_call1.v0 id,
    TRef.unary main_call1.v0 main_call1.v1 (broadcastInDim S8192 ![] bcast_S_S8192),
    TRef.binary (.of main_v0 : TRef sig ⟨S8192, .i32⟩) main_call1.v1 main_call1.v2 Host.divsi,
    TRef.unary (.of main_v0 : TRef sig ⟨S8192, .i32⟩) main_call1.v3 signi,
    TRef.unary main_call1.v0 main_call1.v4 signi,
    TRef.unary main_call1.v4 main_call1.v5 (broadcastInDim S8192 ![] bcast_S_S8192),
    TRef.binary main_call1.v3 main_call1.v5 main_call1.v6 (cmpi .ne),
    TRef.unary main_call1.v0 main_call1.v7 (broadcastInDim S8192 ![] bcast_S_S8192),
    TRef.binary (.of main_v0 : TRef sig ⟨S8192, .i32⟩) main_call1.v7 main_call1.v8 Host.remsi,
    TRef.nullary main_call1.c (constantI S_ 32 0#32),
    TRef.unary main_call1.c main_call1.v9 (broadcastInDim S8192 ![] bcast_S_S8192),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S8192 ![] bcast_S_S8192),
    TRef.binary main_call1.v2 main_call1.v12 main_call1.v13 subi,
    TRef.ternary main_call1.v11 main_call1.v13 main_call1.v2 main_call1.call0.v0 select,
    nullary main_c_1 (constantI S_ 32 2#32),
    TRef.unary (.of main_c_1 : TRef sig ⟨S_, .i32⟩) main_call2.v0 id,
    TRef.nullary main_call2.c (constantI S_ 32 0#32),
    TRef.binary main_call2.v0 main_call2.c main_call2.v1 (cmpi .eq),
    TRef.nullary main_call2.c_0 (constantI S_ 32 1#32),
    TRef.ternary main_call2.v1 main_call2.c_0 main_call2.v0 main_call2.call0.v0 select,
    TRef.unary main_call2.call0.v0 main_call2.v3 (broadcastInDim S8192 ![] bcast_S_S8192),
    TRef.binary (.of main_v2 : TRef sig ⟨S8192, .i32⟩) main_call2.v3 main_call2.v4 Host.remsi,
    TRef.nullary main_call2.c_1 (constantI S_ 32 0#32),
    TRef.unary main_call2.c_1 main_call2.v5 (broadcastInDim S8192 ![] bcast_S_S8192),
    TRef.binary main_call2.v4 main_call2.v5 main_call2.v6 (cmpi .ne),
    TRef.nullary main_call2.c_2 (constantI S_ 32 0#32),
    TRef.unary main_call2.c_2 main_call2.v7 (broadcastInDim S8192 ![] bcast_S_S8192),
    TRef.binary main_call2.v4 main_call2.v7 main_call2.v8 (cmpi .slt),
    TRef.nullary main_call2.c_3 (constantI S_ 32 0#32),
    TRef.binary main_call2.call0.v0 main_call2.c_3 main_call2.v9 (cmpi .slt),
    TRef.unary main_call2.v9 main_call2.v10 (broadcastInDim S8192 ![] bcast_S_S8192),
    TRef.binary main_call2.v8 main_call2.v10 main_call2.v11 (cmpi .ne),
    TRef.binary main_call2.v11 main_call2.v6 main_call2.v12 andi,
    TRef.unary main_call2.call0.v0 main_call2.v13 (broadcastInDim S8192 ![] bcast_S_S8192),
    TRef.binary main_call2.v4 main_call2.v13 main_call2.v14 addi,
    TRef.ternary main_call2.v12 main_call2.v14 main_call2.v4 main_call2.v15 select,
    nullary main_c_2 (constantI S_ 32 0#32),
    unary main_c_2 main_v4 (broadcastInDim S8192 ![] bcast_S_S8192),
    binary main_v3 main_v4 main_v5 (cmpi .eq),
    unary main_v5 main_v6 (uitofp .f32),
    nullary main_cst (constant S_ .f32 0x3F800000#32),
    unary main_cst main_v7 (broadcastInDim S8192 ![] bcast_S_S8192),
    binary main_v7 main_v6 main_v8 subf,
    nullary main_c_3 (constantI S_ 32 0#32),
    unary main_c_3 main_v9 (broadcastInDim S8192 ![] bcast_S_S8192),
    binary main_v1 main_v9 main_v10 (cmpi .slt),
    nullary main_c_4 (constantI S_ 32 64#32),
    unary main_c_4 main_v11 (broadcastInDim S8192 ![] bcast_S_S8192),
    binary main_v1 main_v11 main_v12 addi,
    ternary main_v10 main_v12 main_v1 main_v13 select,
    unary main_v13 main_v14 (broadcastInDim S8192x1 ![0] bcast_S8192_S8192x1_0),
    binary main_arg0 main_v14 main_v15 (fun x i => Host.gather gather_S1024x64_S8192x1_S1024x8192_0_1_n_n_1_1_10241 x i),
    unary main_arg1 main_v16 (broadcastInDim S1x8192 ![1] bcast_S8192_S1x8192_1),
    unary main_v16 main_v17 (broadcastInDim S1024x8192 ![0, 1] bcast_S1x8192_S1024x8192_0_1),
    binary main_v15 main_v17 main_v18 subf,
    TRef.nullary main_call3.cst (constant S_ .f32 0x00000000#32),
    TRef.unary main_call3.cst main_call3.v0 (broadcastInDim S1024x8192 ![] bcast_S_S1024x8192),
    TRef.binary (.of main_v18 : TRef sig ⟨S1024x8192, .f32⟩) main_call3.v0 main_call3.v1 maximumf,
    unary main_v6 main_v20 (broadcastInDim S1x8192 ![1] bcast_S8192_S1x8192_1),
    unary main_v20 main_v21 (broadcastInDim S1024x8192 ![0, 1] bcast_S1x8192_S1024x8192_0_1),
    binary main_v21 main_v19 main_v22 mulf,
    unary main_arg2 main_v23 (broadcastInDim S1x8192 ![1] bcast_S8192_S1x8192_1),
    unary main_v23 main_v24 (broadcastInDim S1024x8192 ![0, 1] bcast_S1x8192_S1024x8192_0_1),
    binary main_v24 main_v15 main_v25 subf,
    TRef.nullary main_call4.cst (constant S_ .f32 0x00000000#32),
    TRef.unary main_call4.cst main_call4.v0 (broadcastInDim S1024x8192 ![] bcast_S_S1024x8192),
    TRef.binary (.of main_v25 : TRef sig ⟨S1024x8192, .f32⟩) main_call4.v0 main_call4.v1 maximumf,
    unary main_v8 main_v27 (broadcastInDim S1x8192 ![1] bcast_S8192_S1x8192_1),
    unary main_v27 main_v28 (broadcastInDim S1024x8192 ![0, 1] bcast_S1x8192_S1024x8192_0_1),
    binary main_v28 main_v26 main_v29 mulf,
    binary main_v22 main_v29 main_v30 addf ]

/-- @main is that straight line: with the functions' bodies unfolded at their calls and the records at their fields, both
    sides are one chain of the same operation steps, and sequencing reassociates by computation. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

set_option maxRecDepth 4096 in
/-- Every operation touches TensorCore buffers only. -/
theorem ops_sub : (ops : List (HloOp τ sig (Elt F))).Forall fun op => op.bufs ⊆ tcRefs τ sig :=
  ⟨nullary_bufs_sub .., nullary_bufs_sub ..,
    -- remainder(iota, 64)
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..,
    nullary_bufs_sub ..,
    -- floor_divide(iota, 64)
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub ..,
    nullary_bufs_sub ..,
    -- remainder(·, 2)
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..,
    -- the mask as a float and its complement
    nullary_bufs_sub .., unary_bufs_sub .., binary_bufs_sub .., unary_bufs_sub .., nullary_bufs_sub .., unary_bufs_sub ..,
    binary_bufs_sub ..,
    -- the column, normalised and gathered
    nullary_bufs_sub .., unary_bufs_sub .., binary_bufs_sub .., nullary_bufs_sub .., unary_bufs_sub .., binary_bufs_sub ..,
    ternary_bufs_sub .., unary_bufs_sub .., binary_bufs_sub ..,
    -- the "greater" side
    unary_bufs_sub .., unary_bufs_sub .., binary_bufs_sub .., nullary_bufs_sub .., unary_bufs_sub .., binary_bufs_sub ..,
    unary_bufs_sub .., unary_bufs_sub .., binary_bufs_sub ..,
    -- the "smaller" side
    unary_bufs_sub .., unary_bufs_sub .., binary_bufs_sub .., nullary_bufs_sub .., unary_bufs_sub .., binary_bufs_sub ..,
    unary_bufs_sub .., unary_bufs_sub .., binary_bufs_sub ..,
    binary_bufs_sub ..⟩

/-- Every weakly fair execution of @main terminates, and every final state has each TensorCore buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold at the result buffer, as one function of the arguments -/

/-- A vector over the units laid along every row of the output: `[8192] → [1, 8192] → [1024, 8192]`. -/
def rows {α : Type} (v : S8192.Idx → α) : S1024x8192.Idx → α :=
  broadcastInDim S1024x8192 ![0, 1] bcast_S1x8192_S1024x8192_0_1 (broadcastInDim S1x8192 ![1] bcast_S8192_S1x8192_1 v)

/-- The reference's result as ONE function of the three arguments: the unit mask as a float `g` and its complement
    `1 − g`, the features gathered at each unit's column, and the two one-sided terms weighted by them. -/
def refOut (x : FVec F S1024x64 .f32) (w1 w2 : FVec F S8192 .f32) : FVec F S1024x8192 .f32 :=
  let gf : FVec F S8192 .f32 := uitofp .f32 (HostWords.unitMask bcast_S_S8192)
  let sf : FVec F S8192 .f32 := subf (broadcastInDim S8192 ![] bcast_S_S8192 (constant S_ .f32 0x3F800000#32)) gf
  let xg : FVec F S1024x8192 .f32 :=
    Host.gather gather_S1024x64_S8192x1_S1024x8192_0_1_n_n_1_1_10241 x
      (broadcastInDim S8192x1 ![0] bcast_S8192_S8192x1_0 (HostWords.columnWord bcast_S_S8192))
  let zero : FVec F S1024x8192 .f32 := broadcastInDim S1024x8192 ![] bcast_S_S1024x8192 (constant S_ .f32 0x00000000#32)
  addf (mulf (rows gf) (maximumf (subf xg (rows w1)) zero)) (mulf (rows sf) (maximumf (subf (rows w2) xg) zero))

set_option maxRecDepth 8192 in
set_option maxHeartbeats 4000000 in
/-- The fold at the result buffer is `refOut` of the arguments' contents: each operation's result read at its own
    buffer, every other buffer passed through, and the integer chains recognised as the shared terms. -/
theorem out_eq (V : Valuation τ sig (Elt F)) :
    after ops V (main_v30 : DevRef τ sig)
      = refOut (V (main_arg0 : DevRef τ sig)) (V (main_arg1 : DevRef τ sig)) (V (main_arg2 : DevRef τ sig)) := by
  after_results_simp
  rfl

set_option maxRecDepth 8192 in
set_option maxHeartbeats 4000000 in
/-- No operation writes an argument. -/
theorem arg0_eq (V : Valuation τ sig (Elt F)) : after ops V (main_arg0 : DevRef τ sig) = V (main_arg0 : DevRef τ sig) := by
  after_results_simp

set_option maxRecDepth 8192 in
set_option maxHeartbeats 4000000 in
theorem arg1_eq (V : Valuation τ sig (Elt F)) : after ops V (main_arg1 : DevRef τ sig) = V (main_arg1 : DevRef τ sig) := by
  after_results_simp

set_option maxRecDepth 8192 in
set_option maxHeartbeats 4000000 in
theorem arg2_eq (V : Valuation τ sig (Elt F)) : after ops V (main_arg2 : DevRef τ sig) = V (main_arg2 : DevRef τ sig) := by
  after_results_simp

/-- THE RUN, READ: every weakly fair execution of the reference terminates with its result at `refOut` of the
    arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30)
        = refOut (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v30).trans (out_eq _), (h c main_arg0).trans (arg0_eq _),
      (h c main_arg1).trans (arg1_eq _), (h c main_arg2).trans (arg2_eq _)⟩)
    (run_main m ρ)

end Cert.ReferenceIdeal.RefRun

end
-- ==== Proof.LibColumnGather.lean ====
/-
  A gather that picks COLUMNS of a matrix, read at an index.

  `x[:, idx]` of a matrix `x : [R, D]` at an integer vector `idx : [U]` is a `stablehlo.gather` over the start indices
  `[U, 1]` with offset axis 0 (the whole column comes along), the operand's axis 1 collapsed and named by the start index
  map, and slices of `R × 1`. Its element `(r, u)` is the operand's element in row `r` and in the column the start index
  `idx[u, 0]` names — read as a signed integer and clamped into `[0, D − 1]`, as every start index of a gather is.
  Stated for arbitrary `R`, `D`, `U` and any element type.
-/
import Idealize.ShloMosaic.Lib.ValueIdx

noncomputable section

namespace Cert.Lib.ColumnGather

open Idealize.ShloMosaic Idealize.ShloMosaic.ValueIdx

variable {α : Type}

/-- The dimension numbers of a column gather for an operand `[R, D]`, start indices `[U, 1]` and result `[R, U]`. -/
abbrev colDims (R D U : Nat)
    (wf : GatherDims.WF ⟨2, ![R, D]⟩ ⟨2, ![U, 1]⟩ ⟨2, ![R, U]⟩ [0] [1] [] [1] [] 1 ![R, 1]) :
    GatherDims ⟨2, ![R, D]⟩ ⟨2, ![U, 1]⟩ ⟨2, ![R, U]⟩ where
  offsetDims := [0]
  collapsedSliceDims := [1]
  operandBatchingDims := []
  startIndicesBatchingDims := []
  startIndexMap := [1]
  indexVectorDim := 1
  sliceSizes := ![R, 1]
  wf := wf

variable {R D U w : Nat}
  (wf : GatherDims.WF ⟨2, ![R, D]⟩ ⟨2, ![U, 1]⟩ ⟨2, ![R, U]⟩ [0] [1] [] [1] [] 1 ![R, 1])

/-- On the row axis nothing is looked up: the slice starts at row 0 and the result's row coordinate is the offset. -/
theorem row_coord (idx : IVec ⟨2, ![U, 1]⟩ w) (y : (⟨2, ![R, U]⟩ : Shape).Idx) :
    (colDims R D U wf).start y idx 0 + (colDims R D U wf).batchCoord y 0 + (colDims R D U wf).offCoord y 0 = (y 0).val := by
  rw [GatherDims.batchCoord_eq_zero _ _ _ List.not_mem_nil, Nat.add_zero]
  have hs : (colDims R D U wf).start y idx 0 = 0 := by
    unfold GatherDims.start
    rw [dif_neg (show (0 : Fin 2) ∉ ([1] : List (Fin 2)) by decide)]
  rw [hs, Nat.zero_add]
  unfold GatherDims.offCoord
  rw [dif_pos ((GatherDims.mem_sKept _ _).mpr
    ⟨(show (0 : Fin 2) ∉ ([1] : List (Fin 2)) by decide), List.not_mem_nil⟩)]
  rfl

/-- On the column axis the coordinate is the start index `idx[u, 0]`, read signed and clamped into `[0, D − 1]`: the axis is
    collapsed, so there is no offset. -/
theorem col_coord (idx : IVec ⟨2, ![U, 1]⟩ w) (y : (⟨2, ![R, U]⟩ : Shape).Idx) :
    (colDims R D U wf).start y idx 1 + (colDims R D U wf).batchCoord y 1 + (colDims R D U wf).offCoord y 1
      = min (idx (ix2 (y 1) (0 : Fin 1))).toInt.toNat (D - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (colDims R D U wf).startIndexMap from List.mem_singleton.mpr rfl)]
  have hsi : (colDims R D U wf).siIdx y ⟨List.idxOf (1 : Fin 2) (colDims R D U wf).startIndexMap,
      List.idxOf_lt_length_iff.2 (List.mem_singleton.mpr rfl)⟩ = ix2 (y 1) (0 : Fin 1) := by
    funext b; refine Fin.ext ?_
    match b with
    | ⟨0, _⟩ => rfl
    | ⟨1, _⟩ => rfl
  rw [hsi]
  rfl

/-- THE COLUMN GATHER READ AT `(r, u)`: row `r` of the operand, in the column `idx[u, 0]` names (signed, clamped). -/
theorem gather_col_apply (hD : 0 < D) (x : (⟨2, ![R, D]⟩ : Shape).Idx → α) (idx : IVec ⟨2, ![U, 1]⟩ w)
    (y : (⟨2, ![R, U]⟩ : Shape).Idx) :
    Host.gather (colDims R D U wf) x idx y
      = x (ix2 (y 0) ⟨min (idx (ix2 (y 1) (0 : Fin 1))).toInt.toNat (D - 1), by omega⟩) := by
  unfold Host.gather
  congr 1
  funext a
  refine Fin.ext ?_
  match a with
  | ⟨0, _⟩ => exact row_coord wf idx y
  | ⟨1, _⟩ => exact col_coord wf idx y

end Cert.Lib.ColumnGather

end
-- ==== Proof.RefRead.lean ====
/-
  The reference's result read at one index, on the extended reals.

  At output index `(r, u)` every broadcast reads its operand at the unit `u` (`rows_apply`, the scalar broadcasts), the mask
  converted to a float is its bit as a number, the zero pattern is zero and the one pattern is one, and the gather reads
  row `r` of the features in the column its start index names — the column word, which is `u mod 64` and, being below 64,
  is neither negative nor clamped (Proof/HostWords.lean, Proof/LibColumnGather.lean). So the element is the reference's
  element of Proof/TwoSidedRelu.lean at the unit's mask bit, `x[r, u mod 64]`, `w1[u]` and `w2[u]` (`refOut_apply`).
-/
import proofs.«421480_j72696616452322_3_alg».proof.Proof.RefRun
import proofs.«421480_j72696616452322_3_alg».proof.Proof.LibColumnGather
import proofs.«421480_j72696616452322_3_alg».proof.Proof.TwoSidedRelu
import Idealize.ShloMosaic.Lib.Pipeline.Value
import Idealize.ShloMosaic.Lib.IdealHost

noncomputable section

namespace Cert.ReferenceIdeal.RefRead

open Cert.ReferenceIdeal Cert.ReferenceIdeal.Gen Idealize.ShloMosaic Idealize.ShloMosaic.ValueIdx
open Cert.ReferenceIdeal.RefRun

/-- A vector over the units laid along every row reads, at `(r, u)`, its entry `u`. -/
theorem rows_apply {α : Type} (v : S8192.Idx → α) (r : Fin 1024) (u : Fin 8192) : rows v (ix2 r u) = v (ix1 u) := by
  unfold rows
  refine (broadcastInDim_apply _ _ _ (ix2 r u) (ix2 (0 : Fin 1) u) (fun a => match a with
    | ⟨0, _⟩ => by show 0 = (if (1 : Nat) = 1 then 0 else r.val); rw [if_pos rfl]
    | ⟨1, _⟩ => by show u.val = (if (8192 : Nat) = 1 then 0 else u.val); rw [if_neg (by decide)])).trans ?_
  exact broadcastInDim_apply _ _ _ (ix2 (0 : Fin 1) u) (ix1 u) (fun a => match a with
    | ⟨0, _⟩ => by show u.val = (if (8192 : Nat) = 1 then 0 else u.val); rw [if_neg (by decide)])

/-- The start indices `[8192, 1]` read, at `(u, 0)`, the column word of unit `u`. -/
theorem starts_apply (u : Fin 8192) :
    (broadcastInDim S8192x1 ![0] bcast_S8192_S8192x1_0 (HostWords.columnWord bcast_S_S8192)) (ix2 u (0 : Fin 1))
      = BitVec.ofNat 32 (u.val % 64) := by
  refine (broadcastInDim_apply _ _ _ (ix2 u (0 : Fin 1)) (ix1 u) (fun a => match a with
    | ⟨0, _⟩ => by show u.val = (if (8192 : Nat) = 1 then 0 else u.val); rw [if_neg (by decide)])).trans ?_
  exact HostWords.columnWord_apply _ u

/-- THE GATHERED FEATURE at `(r, u)` is `x[r, u mod 64]`. -/
theorem gathered_apply {α : Type} (x : S1024x64.Idx → α) (r : Fin 1024) (u : Fin 8192) :
    Host.gather gather_S1024x64_S8192x1_S1024x8192_0_1_n_n_1_1_10241 x
        (broadcastInDim S8192x1 ![0] bcast_S8192_S8192x1_0 (HostWords.columnWord bcast_S_S8192)) (ix2 r u)
      = x (ix2 r ⟨u.val % 64, Nat.mod_lt _ (by decide)⟩) := by
  have hd : gather_S1024x64_S8192x1_S1024x8192_0_1_n_n_1_1_10241
      = Cert.Lib.ColumnGather.colDims 1024 64 8192 gather_S1024x64_S8192x1_S1024x8192_0_1_n_n_1_1_10241_wf := rfl
  rw [hd, Cert.Lib.ColumnGather.gather_col_apply _ (by decide)]
  congr 1
  funext a
  refine Fin.ext ?_
  match a with
  | ⟨0, _⟩ => rfl
  | ⟨1, _⟩ =>
    show min ((broadcastInDim S8192x1 ![0] bcast_S8192_S8192x1_0 (HostWords.columnWord bcast_S_S8192))
      (ix2 u (0 : Fin 1))).toInt.toNat (64 - 1) = u.val % 64
    rw [starts_apply u]
    exact HostWords.clamp_small ⟨u.val % 64, Nat.mod_lt _ (by decide)⟩

/-- THE REFERENCE'S ELEMENT at `(r, u)`: the two one-sided terms of `x[r, u mod 64]` against `w1[u]` and `w2[u]`, weighted by
    the unit's mask bit and its complement. -/
theorem refOut_apply (x : FVec Ideal S1024x64 .f32) (w1 w2 : FVec Ideal S8192 .f32) (r : Fin 1024) (u : Fin 8192) :
    refOut x w1 w2 (ix2 r u)
      = Cert.TwoSidedRelu.masked (HostWords.unitMask bcast_S_S8192 (ix1 u))
          (x (ix2 r ⟨u.val % 64, Nat.mod_lt _ (by decide)⟩)) (w1 (ix1 u)) (w2 (ix1 u)) := by
  unfold refOut Cert.TwoSidedRelu.masked
  simp only [addf_apply, mulf_apply, maximumf_apply, subf_apply, rows_apply]
  rw [gathered_apply x r u]
  -- a broadcast scalar constant reads its pattern everywhere, and the mask as a float is its bit as a number
  show (((HostWords.unitMask bcast_S_S8192 (ix1 u)).toNat : ℝ) : EReal)
        * max (x (ix2 r ⟨u.val % 64, Nat.mod_lt _ (by decide)⟩) - w1 (ix1 u)) (Ideal.ofBits .f32 0x00000000#32)
      + (Ideal.ofBits .f32 0x3F800000#32 - (((HostWords.unitMask bcast_S_S8192 (ix1 u)).toNat : ℝ) : EReal))
        * max (w2 (ix1 u) - x (ix2 r ⟨u.val % 64, Nat.mod_lt _ (by decide)⟩)) (Ideal.ofBits .f32 0x00000000#32) = _
  rw [Ideal.ofBits_zero_f32, Ideal.ofBits_one_f32]

end Cert.ReferenceIdeal.RefRead

end
-- ==== Proof.lean ====
/-
  A layer of one-sided conditions: for a batch of feature rows `x : [1024, 64]` and two threshold vectors
  `w1, w2 : [8192]`, unit `u` reads feature `u mod 64` and is a "greater than" unit when `(u div 64) mod 2 = 0` and a
  "smaller than" unit otherwise. With `g` that mask as a float the reference computes
    `g[u] · max(x[r, u mod 64] − w1[u], 0) + (1 − g[u]) · max(w2[u] − x[r, u mod 64], 0)`
  by a gather of the columns and elementwise host operations. The kernel's wrapper folds the select into a sign row
  (`+1` / `−1`) and an offset row (`−w1` / `w2`), and one gridded kernel computes
    `max(sign[u] · x[r, u mod 64] + offset[u], 0)`
  on blocks of 256 rows, reaching column `u mod 64` by tiling the 64 columns to 128 lanes and viewing the 8192 units as
  64 groups of 128.

  Both programs compute the mask by the same integer chain, which is carried as one term and only split on its bit
  (Proof/HostWords.lean); the reference's column word is `u mod 64` (same file), so its gather reads `x[r, u mod 64]`
  (Proof/LibColumnGather.lean, Proof/RefRead.lean); the kernel's blocks tile the output with the function above of the
  arrays its region finds (Proof/KernelBlocks.lean, over the generated value leg), and those arrays are the two rows
  (Proof/KernelRows.lean, Proof/KernelRead.lean). Element by element the two sides are one extended real for EVERY
  input, finite or not (Proof/TwoSidedRelu.lean: `0 · y = 0`, `1 · y = y`, `(−1) · x = −x`), so the precondition is never
  opened. The reference's run is read back from its operations, the calls of jax's outlined functions unfolded
  (Proof/RefRun.lean). The ideal pass rewrote nothing, so `preserves` is trivial; the kernels' frames are the generated ones.
-/
import proofs.«421480_j72696616452322_3_alg».proof.Defs
import proofs.«421480_j72696616452322_3_alg».proof.Proof.Gen.Kernel
import proofs.«421480_j72696616452322_3_alg».proof.Proof.Gen.Kernel.Skeleton
import proofs.«421480_j72696616452322_3_alg».proof.Proof.Gen.Kernel.Launch
import proofs.«421480_j72696616452322_3_alg».proof.Proof.Gen.Kernel.Points
import proofs.«421480_j72696616452322_3_alg».proof.Proof.Gen.Kernel.Frame
import proofs.«421480_j72696616452322_3_alg».proof.Proof.Gen.KernelIdeal
import proofs.«421480_j72696616452322_3_alg».proof.Proof.Gen.KernelIdeal.Skeleton
import proofs.«421480_j72696616452322_3_alg».proof.Proof.Gen.KernelIdeal.Launch
import proofs.«421480_j72696616452322_3_alg».proof.Proof.Gen.KernelIdeal.Points
import proofs.«421480_j72696616452322_3_alg».proof.Proof.Gen.KernelIdeal.Frame
import proofs.«421480_j72696616452322_3_alg».proof.Proof.Gen.KernelIdeal.Value
import proofs.«421480_j72696616452322_3_alg».proof.Proof.Gen.ReferenceIdeal
import proofs.«421480_j72696616452322_3_alg».proof.Proof.Gen.Pre_finite_inputs
import proofs.«421480_j72696616452322_3_alg».proof.Proof.KernelRead
import proofs.«421480_j72696616452322_3_alg».proof.Proof.RefRead
import Idealize.ShloMosaic.Adequacy
import Idealize.ShloMosaic.Init

noncomputable section

namespace Cert.Proof

open Idealize.ShloMosaic Idealize.ShloMosaic.TcCoe Idealize.SL.Sem Idealize.ShloMosaic.ValueIdx

/-- The two whole-array functions are one: at every index `(r, u)` the kernel's element and the reference's are the two
    sides of the law, at the same mask bit, feature and thresholds. -/
theorem result_eq (x : FVec Ideal ⟨2, ![1024, 64]⟩ .f32) (w1 w2 : FVec Ideal ⟨1, ![8192]⟩ .f32) :
    Cert.KernelIdeal.Blocks.outOf (F := Ideal) x (Cert.KernelIdeal.Rows.signRow (F := Ideal))
        (Cert.KernelIdeal.Rows.offsetRow w1 w2)
      = Cert.ReferenceIdeal.RefRun.refOut x w1 w2 := by
  funext i
  obtain ⟨r, u, rfl⟩ : ∃ (r : Fin 1024) (u : Fin 8192), i = ix2 r u := ⟨i 0, i 1, eq_ix2 i⟩
  rw [Cert.KernelIdeal.Read.outOf_apply, Cert.ReferenceIdeal.RefRead.refOut_apply]
  exact Cert.TwoSidedRelu.folded_eq_masked _ _ _ _

section KernelRun

open Cert.KernelIdeal Cert.KernelIdeal.Gen

variable {F : FTy → Type} [FloatOps F]

/-- The kernel's run with its result named: the output function of the features as launched, the sign row, and the offset
    row of the two threshold vectors as launched; the arguments unchanged. -/
theorem kernel_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v10)
        = Blocks.outOf (m ((c : Thread nD τ).loc main_arg0)) (Rows.signRow (F := F))
            (Rows.offsetRow (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((Blocks.final m c).trans (by
      rw [V_main_arg0 m c, Rows.V_sign m c, Rows.V_offset m c])), (h c).2⟩)
    (Value.run_blocks m ρ)

end KernelRun

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- At `Ideal` the kernel's output ends at its function of the arguments and the reference's at its own, of arguments that
    agree: one function (`result_eq`). -/
theorem algebraic : Cert.algebraic_KernelIdeal_ReferenceIdeal := by
  intro m ρ m' ρ' _ hagree
  refine ⟨_, kernel_run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  exact (result_eq _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
